-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x8192 : Shape := ⟨3, ![4, 64, 8192]⟩
abbrev S8192x8192 : Shape := ⟨2, ![8192, 8192]⟩
abbrev S8192x16 : Shape := ⟨2, ![8192, 16]⟩
abbrev S16x8192 : Shape := ⟨2, ![16, 8192]⟩
abbrev S_ : Shape := ⟨0, ![]⟩

class Facts : Prop where
  bcast_S_S4x64x8192 : S_.BroadcastsInDim S4x64x8192 (![] : Fin 0 → Fin S4x64x8192.rank)
  reducesTo_S4x64x8192_S_d0_1_2 : S4x64x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x16 : S_.BroadcastsInDim S8192x16 (![] : Fin 0 → Fin S8192x16.rank)
  reducesTo_S8192x16_S_d0_1 : S8192x16.ReducesTo [0, 1] S_
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  main_v18

def fn {F : FTy → Type} [FloatOps F] (main_arg0 : FVec F S4x64x8192 .f32) (main_arg1 : FVec F S8192x8192 .f32) (main_arg2 : FVec F S8192x16 .f32) (main_arg3 : FVec F S16x8192 .f32) : IVec S_ 1 :=
  let main_v0 : FVec F S4x64x8192 .f32 := Host.absf main_arg0
  let main_cst : FVec F S_ .f32 := constant S_ .f32 0x7F800000#32
  let main_v1 : FVec F S4x64x8192 .f32 := broadcastInDim S4x64x8192 ![] bcast_S_S4x64x8192 main_cst
  let main_v2 : IVec S4x64x8192 1 := cmpf .olt main_v0 main_v1
  let main_c : IVec S_ 1 := constantI S_ 1 1#1
  let main_v3 : IVec S_ 1 := (fun x v => Host.reduce IntOp.andi x v reducesTo_S4x64x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_v13 main_v16
-- ==== Kernel.lean ====
abbrev S4x64x8192 : Shape := ⟨3, ![4, 64, 8192]⟩
abbrev S8192x8192 : Shape := ⟨2, ![8192, 8192]⟩
abbrev S8192x16 : Shape := ⟨2, ![8192, 16]⟩
abbrev S16x8192 : Shape := ⟨2, ![16, 8192]⟩
abbrev S256x8192 : Shape := ⟨2, ![256, 8192]⟩
abbrev S256x1024 : Shape := ⟨2, ![256, 1024]⟩
abbrev S1024x1024 : Shape := ⟨2, ![1024, 1024]⟩
abbrev S1024x16 : Shape := ⟨2, ![1024, 16]⟩
abbrev S16x1024 : Shape := ⟨2, ![16, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4x64x8192, .f32⟩
  | .hbm, ⟨1, _⟩ => ⟨S8192x8192, .f32⟩
  | .hbm, ⟨2, _⟩ => ⟨S8192x16, .f32⟩
  | .hbm, ⟨3, _⟩ => ⟨S16x8192, .f32⟩
  | .hbm, ⟨4, _⟩ => ⟨S256x8192, .f32⟩
  | .hbm, ⟨5, _⟩ => ⟨S256x8192, .f32⟩
  | .hbm, ⟨6, _⟩ => ⟨S4x64x8192, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x16, .f32⟩
  | .local _ .vmem, ⟨5, _⟩ => ⟨S1024x16, .f32⟩
  | .local _ .vmem, ⟨6, _⟩ => ⟨S16x1024, .f32⟩
  | .local _ .vmem, ⟨7, _⟩ => ⟨S16x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S4x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x64x8192_S256x8192 : S4x64x8192.ShapeCasts S256x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  shapeCasts_S256x8192_S4x64x8192 : S256x8192.ShapeCasts S4x64x8192
  dot_S1024x16_S16x1024_S1024x1024_1_0_0_1_n_n_wf : DotDims.WF S1024x16 S16x1024 S1024x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x8192.size a
  hwx0_0 : ∀ i : grid0.Coords, EltTy.bits .f32 = 32 ∨ (Rect.block (s := S256x8192) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x8192.size a
  hwx0_3 : ∀ i : grid0.Coords, EltTy.bits .f32 = 32 ∨ (Rect.block (s := S16x8192) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x8192.size a
  hwx0_4 : ∀ i : grid0.Coords, EltTy.bits .f32 = 32 ∨ (Rect.block (s := S256x8192) S256x1024.size (cc0_transform_4 i) (hinb0_4 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x64x8192 : Shape := ⟨3, ![4, 64, 8192]⟩
abbrev S8192x8192 : Shape := ⟨2, ![8192, 8192]⟩
abbrev S8192x16 : Shape := ⟨2, ![8192, 16]⟩
abbrev S16x8192 : Shape := ⟨2, ![16, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x64x8192, .f32⟩
  | .hbm, ⟨1, _⟩ => ⟨S8192x8192, .f32⟩
  | .hbm, ⟨2, _⟩ => ⟨S8192x16, .f32⟩
  | .hbm, ⟨3, _⟩ => ⟨S16x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S4x64x8192, .f32⟩
  | _, _ => ⟨S4x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  dot_S8192x16_S16x8192_S8192x8192_1_0_0_1_n_n_wf : DotDims.WF S8192x16 S16x8192 S8192x8192 [1] [0] [0] [1] [] []
  dot_S4x64x8192_S8192x8192_S4x64x8192_2_1_01_0_n_n_wf : DotDims.WF S4x64x8192 S8192x8192 S4x64x8192 [2] [1] [0, 1] [0] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S4x64x8192_S8192x8192_S4x64x8192_2_1_01_0_n_n : DotDims S4x64x8192 S8192x8192 S4x64x8192 where
  lhsContracting := [2]
  rhsContracting := [1]
  lhsNonContracting := [0, 1]
  rhsNonContracting := [0]
  lhsBatch := []
  rhsBatch := []
  wf := dot_S4x64x8192_S8192x8192_S4x64x8192_2_1_01_0_n_n_wf

class Facts : Prop extends Facts₀ where

variable [Facts]
-- ==== Proof.MergedWeight.lean ====
/-
  A linear layer whose weight carries a low-rank update, as plain mathematics over the extended reals.

  With x of 256 rows and 8192 columns, W of 8192 by 8192, A of 8192 by 16 and B of 16 by 8192, the layer's entry
  (p, o) is the sum over the 8192 columns d of x[p, d] times the merged weight's entry (o, d), where the merged
  weight is W[o, d] plus the sum over the sixteen ranks r of A[o, r] times B[r, d].

  The sum over the columns is also taken a stretch at a time: `upto n` is the sum over the first n columns, it is
  zero for no column, a tile of 1024 further columns adds that tile's 1024 products, and all 8192 columns give the
  layer's entry. Only the associativity of the extended reals' addition is used, so nothing here asks the entries
  to be finite.
-/
import Idealize.ShloMosaic.PureOps.Ideal
import Idealize.ShloMosaic.Lib.ValueIdx

noncomputable section

open scoped BigOperators

namespace Cert.LoraLinear

open Idealize.ShloMosaic Idealize.ShloMosaic.ValueIdx

variable (x : (⟨2, ![256, 8192]⟩ : Shape).Idx → EReal) (W : (⟨2, ![8192, 8192]⟩ : Shape).Idx → EReal)
  (A : (⟨2, ![8192, 16]⟩ : Shape).Idx → EReal) (B : (⟨2, ![16, 8192]⟩ : Shape).Idx → EReal)

/-- Entry (o, d) of the merged weight W + A·B. -/
def merged (o d : Fin 8192) : EReal := W (ix2 o d) + ∑ r : Fin 16, A (ix2 o r) * B (ix2 r d)

/-- What column d adds to entry (p, o) of x·(W + A·B)ᵀ: x[p, d] times the merged weight's (o, d); past the last
    column, nothing. -/
def contrib (p : Fin 256) (o : Fin 8192) (d : ℕ) : EReal :=
  if h : d < 8192 then x (ix2 p ⟨d, h⟩) * merged W A B o ⟨d, h⟩ else 0

/-- The first n columns' contributions to entry (p, o), summed. -/
def upto (p : Fin 256) (o : Fin 8192) (n : ℕ) : EReal := ∑ d ∈ Finset.range n, contrib x W A B p o d

/-- The layer: entry (p, o) is row p of x against row o of the merged weight. -/
def linear : (⟨2, ![256, 8192]⟩ : Shape).Idx → EReal :=
  fun i => ∑ d : Fin 8192, x (ix2 (i 0) d) * merged W A B (i 1) d

/-- The same layer over x as the argument gives it, 4 by 64 rows of 8192 columns: entry (b, s, o) is row (b, s) of
    x against row o of the merged weight. -/
def layer (x3 : (⟨3, ![4, 64, 8192]⟩ : Shape).Idx → EReal) : (⟨3, ![4, 64, 8192]⟩ : Shape).Idx → EReal :=
  fun i => ∑ d : Fin 8192, x3 (ix3 (i 0) (i 1) d) * merged W A B (i 2) d

/-- No column, no contribution. -/
theorem upto_zero (p : Fin 256) (o : Fin 8192) : upto x W A B p o 0 = 0 := Finset.sum_range_zero _

/-- One more tile of 1024 columns adds that tile's 1024 products. -/
theorem upto_tile (p : Fin 256) (o : Fin 8192) (k : ℕ) (hk : k < 8) :
    upto x W A B p o (1024 * (k + 1))
      = upto x W A B p o (1024 * k)
        + ∑ q : Fin 1024, x (ix2 p ⟨1024 * k + q.val, by have := q.isLt; omega⟩)
            * merged W A B o ⟨1024 * k + q.val, by have := q.isLt; omega⟩ := by
  unfold upto
  rw [show 1024 * (k + 1) = 1024 * k + 1024 from by ring, Finset.sum_range_add,
    ← Fin.sum_univ_eq_sum_range (fun q => contrib x W A B p o (1024 * k + q)) 1024]
  refine congrArg (_ + ·) (Finset.sum_congr rfl fun q _ => ?_)
  unfold contrib
  rw [dif_pos (by have := q.isLt; omega)]

/-- All 8192 columns give the layer's entry. -/
theorem upto_all (p : Fin 256) (o : Fin 8192) : upto x W A B p o 8192 = linear x W A B (ix2 p o) := by
  unfold upto linear
  rw [← Fin.sum_univ_eq_sum_range (fun d => contrib x W A B p o d) 8192]
  refine Finset.sum_congr rfl fun d _ => ?_
  unfold contrib
  rw [dif_pos d.isLt]

end Cert.LoraLinear

end
-- ==== Proof.TileProduct.lean ====
/-
  One grid point's arithmetic, entry by entry, over the extended reals.

  At a grid point the body holds a 256 by 1024 block of x, a 1024 by 1024 block of W, a 1024 by 16 block of A, a
  16 by 1024 block of B and the 256 by 1024 accumulator. It forms the low-rank product of the A and B blocks, adds
  it to the W block, and adds to the accumulator the product of the x block with the TRANSPOSE of that merged block:
  both operands of the second product are contracted along their second axis. Entry (p, n) of what it stores is

      acc[p, n] + ∑ q < 1024, x[p, q] · (W[n, q] + ∑ r < 16, A[n, r] · B[r, q]).

  Over the extended reals a change of float format is the identity and a matrix-unit product into a zero
  accumulator is the plain sum of the products, so this is read off the body's term directly. The block the reset
  stores is zero everywhere.
-/
import proofs.«155965_j66494683676793_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The low-rank product A·B of a tile: rows of A against columns of B -/

theorem lowrank_lhs_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lowrank_lhs_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem lowrank_rhs_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem lowrank_rhs_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry (n, q) of the tile's low-rank product: row n of the A block against column q of the B block. -/
theorem lowrank_apply (a : FVec Ideal S1024x16 .bf16) (b : FVec Ideal S16x1024 .bf16) (n q : Fin 1024) :
    matmul dot_S1024x16_S16x1024_S1024x1024_1_0_0_1_n_n none a b (constant (F := Ideal) S1024x1024 .f32 0x00000000#32) (ix2 n q)
      = ∑ r : Fin 16, a (ix2 n r) * b (ix2 r q) := by
  simp only [matmul]
  rw [Ideal.matmul_constant_zero_apply, ← Equiv.sum_comp (contrEquiv1 dot_S1024x16_S16x1024_S1024x1024_1_0_0_1_n_n 16 rfl rfl).symm]
  refine Finset.sum_congr rfl fun r _ => ?_
  have hr := contrEquiv1_symm_val dot_S1024x16_S16x1024_S1024x1024_1_0_0_1_n_n 16 rfl rfl r
  have el : dot_S1024x16_S16x1024_S1024x1024_1_0_0_1_n_n.lhsIdx (ix2 n q) ((contrEquiv1 dot_S1024x16_S16x1024_S1024x1024_1_0_0_1_n_n 16 rfl rfl).symm r) = ix2 n r := funext fun d => Fin.ext (by
    match d with
    | ⟨0, _⟩ => exact lowrank_lhs_0 _ _
    | ⟨1, _⟩ => exact (lowrank_lhs_1 _ _).trans hr)
  have er : dot_S1024x16_S16x1024_S1024x1024_1_0_0_1_n_n.rhsIdx (ix2 n q) ((contrEquiv1 dot_S1024x16_S16x1024_S1024x1024_1_0_0_1_n_n 16 rfl rfl).symm r) = ix2 r q := funext fun d => Fin.ext (by
    match d with
    | ⟨0, _⟩ => exact (lowrank_rhs_0 _ _).trans hr
    | ⟨1, _⟩ => exact lowrank_rhs_1 _ _)
  rw [el, er]

/-! ## The product of the x block with the transposed merged block: rows against rows -/

theorem rows_lhs_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem rows_lhs_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rows_rhs_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rows_rhs_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Entry (p, n) of the x block against the transposed weight block: row p of the one against row n of the other. -/
theorem rows_apply (xb : FVec Ideal S256x1024 .bf16) (wb : FVec Ideal S1024x1024 .bf16) (p : Fin 256) (n : Fin 1024) :
    matmul dot_S256x1024_S1024x1024_S256x1024_1_1_0_0_n_n none xb wb (constant (F := Ideal) S256x1024 .f32 0x00000000#32) (ix2 p n)
      = ∑ q : Fin 1024, xb (ix2 p q) * wb (ix2 n q) := by
  simp only [matmul]
  rw [Ideal.matmul_constant_zero_apply, ← Equiv.sum_comp (contrEquiv1 dot_S256x1024_S1024x1024_S256x1024_1_1_0_0_n_n 1024 rfl rfl).symm]
  refine Finset.sum_congr rfl fun q _ => ?_
  have hq := contrEquiv1_symm_val dot_S256x1024_S1024x1024_S256x1024_1_1_0_0_n_n 1024 rfl rfl q
  have el : dot_S256x1024_S1024x1024_S256x1024_1_1_0_0_n_n.lhsIdx (ix2 p n) ((contrEquiv1 dot_S256x1024_S1024x1024_S256x1024_1_1_0_0_n_n 1024 rfl rfl).symm q) = ix2 p q := funext fun d => Fin.ext (by
    match d with
    | ⟨0, _⟩ => exact rows_lhs_0 _ _
    | ⟨1, _⟩ => exact (rows_lhs_1 _ _).trans hq)
  have er : dot_S256x1024_S1024x1024_S256x1024_1_1_0_0_n_n.rhsIdx (ix2 p n) ((contrEquiv1 dot_S256x1024_S1024x1024_S256x1024_1_1_0_0_n_n 1024 rfl rfl).symm q) = ix2 n q := funext fun d => Fin.ext (by
    match d with
    | ⟨0, _⟩ => exact rows_rhs_0 _ _
    | ⟨1, _⟩ => exact (rows_rhs_1 _ _).trans hq)
  rw [el, er]

/-! ## The body's two stored values -/

/-- The block the reset stores is zero at every entry. -/
theorem reset_apply (i : S256x1024.Idx) : k0_pay1 (F := Ideal) i = 0 := by
  unfold k0_pay1
  simp only [shapeCast_self]
  exact Ideal.ofBits_zero_f32

/-- Entry (p, n) of the accumulator the body stores: the accumulator it read, plus row p of the x block against
    row n of the merged block W + A·B. -/
theorem step_apply (ab : Vec Ideal S1024x16 .f32) (bb : Vec Ideal S16x1024 .f32) (wb : Vec Ideal S1024x1024 .f32)
    (xb acc : Vec Ideal S256x1024 .f32) (p : Fin 256) (n : Fin 1024) :
    k0_pay2 (F := Ideal) ab bb wb xb acc (ix2 p n)
      = acc (ix2 p n) + ∑ q : Fin 1024, xb (ix2 p q) * (wb (ix2 n q) + ∑ r : Fin 16, ab (ix2 n r) * bb (ix2 r q)) := by
  unfold k0_pay2
  simp only [shapeCast_self]
  refine congrArg (acc (ix2 p n) + ·) ?_
  refine (rows_apply _ _ p n).trans (Finset.sum_congr rfl fun q _ => ?_)
  refine congrArg (xb (ix2 p q) * ·) ?_
  exact congrArg (wb (ix2 n q) + ·) (lowrank_apply _ _ n q)

end Cert.KernelIdeal.Tile

end
-- ==== Proof.Pieces.lean ====
/-
  What the body's stores leave, case by case, as values of the blocks it loaded.

  The body runs in one of three ways. At the first step along the contracted axis it stores the zero block into the
  accumulator and then the step's value over that zero block; at a middle step it stores the step's value over the
  accumulator it found; at the last step it does the same and then copies the accumulator into the output block.
  Every store covers its whole buffer, so what a buffer holds afterwards is the last value stored, and a load that
  follows a store reads that store's value.
-/
import proofs.«155965_j66494683676793_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step: the accumulator ends at the step's value over the zero block. -/
theorem acc_first (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S1024x16 .f32) (x3 : Vec F S16x1024 .f32) :
    sout0_A_0 c i arg2 harg2 arg3 harg3 arg4 harg4 arg5 harg5 arg6 harg6 arg7 harg7 hc0 hc1 x0 x1 x2 x3 = k0_pay2 x2 x3 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x1024) hz, View.readCov_unit_zero (S := S256x1024) _ hz]
  simp only [View.readAt_eq_ld, harg2.read_unread, harg3.read_unread, harg4.read_unread, harg5.read_unread, harg6.read_unread, harg7.read_unread, View.ld_unit_zero (S := S256x1024) hz, View.ld_unit_zero (S := S1024x1024) hz, View.ld_unit_zero (S := S1024x16) hz, View.ld_unit_zero (S := S16x1024) hz]

/-- Middle step: the accumulator ends at the step's value over what it held. -/
theorem acc_middle (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S1024x16 .f32) (x3 : Vec F S16x1024 .f32) (xs0 : Vec F S256x1024 .f32) :
    sout0_B_0 c i arg2 harg2 arg3 harg3 arg4 harg4 arg5 harg5 arg6 harg6 arg7 harg7 hc0 hc1 x0 x1 x2 x3 xs0 = k0_pay2 x2 x3 x1 x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S256x1024) hz, View.ld_unit_zero (S := S1024x1024) hz, View.ld_unit_zero (S := S1024x16) hz, View.ld_unit_zero (S := S16x1024) hz]

/-- Last step: the accumulator ends at the step's value over what it held, -/
theorem acc_last (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S1024x16 .f32) (x3 : Vec F S16x1024 .f32) (xs0 : Vec F S256x1024 .f32) :
    sout0_C_0 c i arg2 harg2 arg3 harg3 arg4 harg4 arg5 harg5 arg6 harg6 arg7 harg7 hc0 hc1 x0 x1 x2 x3 xs0 = k0_pay2 x2 x3 x1 x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S256x1024) hz, View.ld_unit_zero (S := S1024x1024) hz, View.ld_unit_zero (S := S1024x16) hz, View.ld_unit_zero (S := S16x1024) hz]

/-- and the output block at the same value, copied from the accumulator. -/
theorem out_last (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S1024x16 .f32) (x3 : Vec F S16x1024 .f32) (xs0 : Vec F S256x1024 .f32) :
    out0_C_4 c i arg2 harg2 arg3 harg3 arg4 harg4 arg5 harg5 arg6 harg6 arg7 harg7 hc0 hc1 x0 x1 x2 x3 xs0 = k0_pay2 x2 x3 x1 x0 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S256x1024) hz, View.ld_unit_zero (S := S1024x1024) hz, View.ld_unit_zero (S := S1024x16) hz, View.ld_unit_zero (S := S16x1024) hz, View.readCov_unit_zero (S := S256x1024) _ hz]

end Cert.KernelIdeal.Pieces

end
-- ==== Proof.Blocks.lean ====
/-
  Where each block of a grid point sits in its array.

  The grid has 8 by 8 points, numbered row by row: point t is the pair (t / 8, t % 8) of an output column tile and a
  step along the contracted axis. At point t the x block is columns 1024·(t % 8) onwards of all 256 rows of x; the W
  block is rows 1024·(t / 8) onwards and columns 1024·(t % 8) onwards of W; the A block is rows 1024·(t / 8) onwards
  of A; the B block is columns 1024·(t % 8) onwards of B; and the output block is columns 1024·(t / 8) onwards of
  the result. The x the region reads is the argument of shape 4 by 64 by 8192 with its first two axes flattened:
  row 64·b + s of the one is row (b, s) of the other.
-/
import proofs.«155965_j66494683676793_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps over the grid: point t is output tile t / 8 at step t % 8 of the contraction. -/
theorem tile_of_point : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = t.val / 8 :=
  (by decide +kernel : ∀ t : Fin grid0.N, _)

/-- The four input blocks at a point and the four arrays the region finds, each at its literal shape. -/
abbrev xblk (c : Dev nD) (t : Fin cfg0.N) : Vec F S256x1024 .f32 := iblk m c 0 t
abbrev wblk (c : Dev nD) (t : Fin cfg0.N) : Vec F S1024x1024 .f32 := iblk m c 1 t
abbrev ablk (c : Dev nD) (t : Fin cfg0.N) : Vec F S1024x16 .f32 := iblk m c 2 t
abbrev bblk (c : Dev nD) (t : Fin cfg0.N) : Vec F S16x1024 .f32 := iblk m c 3 t
abbrev xarr (c : Dev nD) : Vec F S256x8192 .f32 := V m c main_v0
abbrev warr (c : Dev nD) : Vec F S8192x8192 .f32 := V m c main_arg1
abbrev aarr (c : Dev nD) : Vec F S8192x16 .f32 := V m c main_arg2
abbrev barr (c : Dev nD) : Vec F S16x8192 .f32 := V m c main_arg3

/-- Entry (p, q) of the x block is x at row p, column 1024·(t % 8) + q. -/
theorem xblk_apply (c : Dev nD) (t : Fin cfg0.N) (p : Fin 256) (q : Fin 1024) :
    xblk m c t (ix2 p q) = xarr m c (ix2 p ⟨1024 * (t.val % 8) + q.val, by have := q.isLt; omega⟩) := by
  obtain ⟨e0, e1, -⟩ := tile_of_point t
  unfold xblk xarr iblk
  rw [View.read_apply]
  show V m c main_v0 _ = V m c main_v0 _
  congr 1
  funext a
  apply Fin.ext
  match a with
  | ⟨0, _⟩ => show win0_0.index t (0 : Fin 2) * 256 + 1 * p.val = p.val; omega
  | ⟨1, _⟩ => show win0_0.index t (1 : Fin 2) * 1024 + 1 * q.val = 1024 * (t.val % 8) + q.val; omega

/-- Entry (n, q) of the W block is W at row 1024·(t / 8) + n, column 1024·(t % 8) + q. -/
theorem wblk_apply (c : Dev nD) (t : Fin cfg0.N) (ht : t.val < 64) (n q : Fin 1024) :
    wblk m c t (ix2 n q) = warr m c (ix2 ⟨1024 * (t.val / 8) + n.val, by have := n.isLt; omega⟩
      ⟨1024 * (t.val % 8) + q.val, by have := q.isLt; omega⟩) := by
  obtain ⟨-, -, e0, e1, -⟩ := tile_of_point t
  unfold wblk warr iblk
  rw [View.read_apply]
  show V m c main_arg1 _ = V m c main_arg1 _
  congr 1
  funext a
  apply Fin.ext
  match a with
  | ⟨0, _⟩ => show win0_1.index t (0 : Fin 2) * 1024 + 1 * n.val = 1024 * (t.val / 8) + n.val; omega
  | ⟨1, _⟩ => show win0_1.index t (1 : Fin 2) * 1024 + 1 * q.val = 1024 * (t.val % 8) + q.val; omega

/-- Entry (n, r) of the A block is A at row 1024·(t / 8) + n, column r. -/
theorem ablk_apply (c : Dev nD) (t : Fin cfg0.N) (ht : t.val < 64) (n : Fin 1024) (r : Fin 16) :
    ablk m c t (ix2 n r) = aarr m c (ix2 ⟨1024 * (t.val / 8) + n.val, by have := n.isLt; omega⟩ r) := by
  obtain ⟨-, -, -, -, e0, e1, -⟩ := tile_of_point t
  unfold ablk aarr iblk
  rw [View.read_apply]
  show V m c main_arg2 _ = V m c main_arg2 _
  congr 1
  funext a
  apply Fin.ext
  match a with
  | ⟨0, _⟩ => show win0_2.index t (0 : Fin 2) * 1024 + 1 * n.val = 1024 * (t.val / 8) + n.val; omega
  | ⟨1, _⟩ => show win0_2.index t (1 : Fin 2) * 16 + 1 * r.val = r.val; omega

/-- Entry (r, q) of the B block is B at row r, column 1024·(t % 8) + q. -/
theorem bblk_apply (c : Dev nD) (t : Fin cfg0.N) (r : Fin 16) (q : Fin 1024) :
    bblk m c t (ix2 r q) = barr m c (ix2 r ⟨1024 * (t.val % 8) + q.val, by have := q.isLt; omega⟩) := by
  obtain ⟨-, -, -, -, -, -, e0, e1, -⟩ := tile_of_point t
  unfold bblk barr iblk
  rw [View.read_apply]
  show V m c main_arg3 _ = V m c main_arg3 _
  congr 1
  funext a
  apply Fin.ext
  match a with
  | ⟨0, _⟩ => show win0_3.index t (0 : Fin 2) * 16 + 1 * r.val = r.val; omega
  | ⟨1, _⟩ => show win0_3.index t (1 : Fin 2) * 1024 + 1 * q.val = 1024 * (t.val % 8) + q.val; omega

/-- The x the region finds is the argument with its first two axes flattened. -/
theorem xarr_eq (c : Dev nD) :
    xarr m c = shapeCast S256x8192 (m ((c : Thread nD τ).loc main_arg0)) shapeCasts_S4x64x8192_S256x8192 := by
  show StableHlo.after hostOps0 (fun b => m (c, b)) (Proc.devRef .tc main_v0) = _
  after_results
  rfl

/-- Row 64·b + s of the flattened x is row (b, s) of the argument. -/
theorem xarr_apply (c : Dev nD) (b : Fin 4) (s : Fin 64) (d : Fin 8192) :
    xarr m c (ix2 ⟨64 * b.val + s.val, by have := b.isLt; have := s.isLt; omega⟩ d)
      = m ((c : Thread nD τ).loc main_arg0) (ix3 b s d) := by
  rw [xarr_eq]
  refine shapeCast_apply _ _ _ _ ?_
  show (S4x64x8192.rowMajor (ix3 b s d)).val = (S256x8192.rowMajor (ix2 ⟨64 * b.val + s.val, _⟩ d)).val
  rw [Shape.rowMajor_val_two, Shape.rowMajor_val_three]
  show (b.val * 64 + s.val) * 8192 + d.val = (64 * b.val + s.val) * 8192 + d.val
  omega

/-- The other three arrays are the arguments as launched. -/
theorem warr_eq (c : Dev nD) : warr m c = m ((c : Thread nD τ).loc main_arg1) := V_main_arg1 m c
theorem aarr_eq (c : Dev nD) : aarr m c = m ((c : Thread nD τ).loc main_arg2) := V_main_arg2 m c
theorem barr_eq (c : Dev nD) : barr m c = m ((c : Thread nD τ).loc main_arg3) := V_main_arg3 m c

end Cert.KernelIdeal.Blocks

end
-- ==== Proof.Accumulate.lean ====
/-
  The accumulator, point by point.

  Point t = 8·j + k works on output tile j at step k of the contraction. The accumulator after point t holds, at
  entry (p, n), the sum over the first 1024·(k + 1) columns d of x[p, d] times the merged weight's entry
  (1024·j + n, d): the first step starts from the zero block, each later step adds its tile of 1024 columns to what
  the step before left, and the steps of one output tile follow one another on the grid. After the eighth step all
  8192 columns are in, and that step copies the accumulator into the output block.
-/
import proofs.«155965_j66494683676793_1_alg».proof.Proof.MergedWeight
import proofs.«155965_j66494683676793_1_alg».proof.Proof.TileProduct
import proofs.«155965_j66494683676793_1_alg».proof.Proof.Pieces
import proofs.«155965_j66494683676793_1_alg».proof.Proof.Blocks

set_option maxRecDepth 16384

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.KernelIdeal.Blocks Cert.LoraLinear

/-! ## Each point's stores over the point before, for any reading of the floats -/

section AnyReading

variable {F : FTy → Type} [FloatOps F]
variable (m : (ℓ : Loc nD τ sig) → Buf (Elt F) ℓ)

/-- At a first step the accumulator ends at the step's value over the zero block. -/
theorem acc_at_first (c : Dev nD) (t : Fin cfg0.N) (h0 : t.val % 8 = 0) :
    (outsAt0 m c t.val t.isLt).2
      = k0_pay2 (ablk m c t) (bblk m c t) (wblk m c t) (xblk m c t) (k0_pay1 (F := F)) := by
  have h1 : ¬t.val % 8 = 7 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At a later step it ends at the step's value over what the point before left in it. -/
theorem acc_at_later (c : Dev nD) (t : Fin cfg0.N) (h0 : ¬t.val % 8 = 0) :
    (outsAt0 m c t.val t.isLt).2
      = k0_pay2 (ablk m c t) (bblk m c t) (wblk m c t) (xblk m c t) (outsAt0 m c (t.val - 1) (Nat.lt_of_le_of_lt (Nat.sub_le _ _) t.isLt)).2 := by
  by_cases h1 : t.val % 8 = 7
  · rw [outsAt0_C m c t h0 h1]
    dsimp only
    exact Pieces.acc_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.acc_middle (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a last step the output block ends at the same value as the accumulator. -/
theorem out_at_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (Pieces.out_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Pieces.acc_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

end AnyReading

/-! ## Over the extended reals -/

variable (m : (ℓ : Loc nD τ sig) → Buf (Elt Ideal) ℓ)

/-- One step at point t, entry (p, n), with o the weight row 1024·(t / 8) + n and k the step t % 8: the accumulator
    it read plus the k-th tile of 1024 columns of row p of x against row o of the merged weight. -/
theorem step_at (c : Dev nD) (t : Fin cfg0.N) (acc : Vec Ideal S256x1024 .f32) (p : Fin 256) (n : Fin 1024)
    (o : Fin 8192) (ho : o.val = 1024 * (t.val / 8) + n.val) (k : ℕ) (hk : k = t.val % 8) (hk8 : k < 8) :
    k0_pay2 (F := Ideal) (ablk m c t) (bblk m c t) (wblk m c t) (xblk m c t) acc (ix2 p n)
      = acc (ix2 p n)
        + ∑ q : Fin 1024, xarr m c (ix2 p ⟨1024 * k + q.val, by have := q.isLt; omega⟩)
            * merged (warr m c) (aarr m c) (barr m c) o ⟨1024 * k + q.val, by have := q.isLt; omega⟩ := by
  have hN : t.val < 64 := lt_of_lt_of_eq t.isLt (show cfg0.N = 64 from N_0)
  subst hk
  rw [Tile.step_apply]
  refine congrArg (acc (ix2 p n) + ·) (Finset.sum_congr rfl fun q _ => ?_)
  have eo : (⟨1024 * (t.val / 8) + n.val, by have := n.isLt; omega⟩ : Fin 8192) = o := Fin.ext ho.symm
  rw [xblk_apply, wblk_apply m c t hN, eo]
  refine congrArg (xarr m c _ * ·) ?_
  unfold merged
  refine congrArg (warr m c _ + ·) (Finset.sum_congr rfl fun r _ => ?_)
  rw [ablk_apply m c t hN, bblk_apply, eo]

/-- THE ACCUMULATOR after point t, at entry (p, n) with o the weight row 1024·(t / 8) + n: the first
    1024·(t % 8 + 1) columns of row p of x against row o of the merged weight. -/
theorem acc_after (c : Dev nD) : ∀ (t : ℕ) (h : t < cfg0.N) (p : Fin 256) (n : Fin 1024) (o : Fin 8192),
    o.val = 1024 * (t / 8) + n.val →
    (outsAt0 m c t h).2 (ix2 p n)
      = upto (xarr m c) (warr m c) (aarr m c) (barr m c) p o (1024 * (t % 8 + 1)) := by
  intro t
  induction t with
  | zero =>
    intro h p n o ho
    have e := acc_at_first m c ⟨0, h⟩ (Nat.zero_mod 8)
    rw [show (outsAt0 m c 0 h).2 = _ from e, step_at m c ⟨0, h⟩ _ p n o ho 0 rfl (by decide), Tile.reset_apply]
    exact ((upto_tile (xarr m c) (warr m c) (aarr m c) (barr m c) p o 0 (by decide)).trans
      (congrArg (· + _) (upto_zero _ _ _ _ p o))).symm
  | succ t ih =>
    intro h p n o ho
    have hN : t + 1 < 64 := lt_of_lt_of_eq h (show cfg0.N = 64 from N_0)
    by_cases h0 : (t + 1) % 8 = 0
    · have e := acc_at_first m c ⟨t + 1, h⟩ h0
      rw [show (outsAt0 m c (t + 1) h).2 = _ from e,
        step_at m c ⟨t + 1, h⟩ _ p n o ho ((t + 1) % 8) rfl (Nat.mod_lt _ (by decide)), Tile.reset_apply]
      have z : upto (xarr m c) (warr m c) (aarr m c) (barr m c) p o (1024 * ((t + 1) % 8)) = 0 := by
        rw [h0]; exact upto_zero _ _ _ _ p o
      rw [← z]
      exact (upto_tile (xarr m c) (warr m c) (aarr m c) (barr m c) p o ((t + 1) % 8) (Nat.mod_lt _ (by decide))).symm
    · have e := acc_at_later m c ⟨t + 1, h⟩ h0
      rw [show (outsAt0 m c (t + 1) h).2 = _ from e,
        step_at m c ⟨t + 1, h⟩ _ p n o ho ((t + 1) % 8) rfl (Nat.mod_lt _ (by decide))]
      have hprev := ih (Nat.lt_of_succ_lt h) p n o (by rw [ho]; show 1024 * ((t + 1) / 8) + n.val = 1024 * (t / 8) + n.val; omega)
      rw [show (outsAt0 m c ((⟨t + 1, h⟩ : Fin cfg0.N).val - 1) _).2 (ix2 p n) = (outsAt0 m c t (Nat.lt_of_succ_lt h)).2 (ix2 p n) from rfl,
        hprev, show t % 8 + 1 = (t + 1) % 8 from by omega]
      exact (upto_tile (xarr m c) (warr m c) (aarr m c) (barr m c) p o ((t + 1) % 8) (Nat.mod_lt _ (by decide))).symm

/-- THE OUTPUT BLOCK a last step leaves: the layer's entries of its output tile. -/
theorem out_after (c : Dev nD) (t : Fin cfg0.N) (h1 : t.val % 8 = 7) (p : Fin 256) (n : Fin 1024) (o : Fin 8192)
    (ho : o.val = 1024 * (t.val / 8) + n.val) :
    (outsAt0 m c t.val t.isLt).1 (ix2 p n)
      = linear (xarr m c) (warr m c) (aarr m c) (barr m c) (ix2 p o) := by
  rw [out_at_last m c t h1, acc_after m c t.val t.isLt p n o ho, h1]
  exact upto_all _ _ _ _ p o

end Cert.KernelIdeal.Accumulate

end
-- ==== Proof.Result.lean ====
/-
  What the kernel's program ends with.

  Only a last step writes its output block back, and the eight last steps' blocks are the eight column tiles of the
  region's 256 by 8192 result, so that array ends at the layer of the flattened x: entry (p, o) is row p of the
  flattened x against row o of the merged weight. The program's result is that array reshaped to 4 by 64 by 8192,
  and the flattened x is the argument reshaped the other way, so entry (b, s, o) of the program's result is row
  (b, s) of the argument x against row o of the merged weight.
-/
import proofs.«155965_j66494683676793_1_alg».proof.Proof.Accumulate

set_option maxRecDepth 16384

noncomputable section

open scoped BigOperators

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.LoraLinear

variable (m : (ℓ : Loc nD τ sig) → Buf (Elt Ideal) ℓ) (ρ : Dev nD → PrngReg)

/-- What the region's result array ends at: the layer of the flattened x. -/
abbrev region (c : Dev nD) : Buf (Elt Ideal) ((c : Thread nD τ).loc main_v1) :=
  linear (xarr m c) (warr m c) (aarr m c) (barr m c)

/-- What a last step writes back is its block of that. -/
theorem flushed_eq (c : Dev nD) (t : Fin cfg0.N) (hf : (cfg0.win 4).flush t = true) :
    (dats m 0 c).flushed 4 t = ((cfg0.win 4).blk t).view.read (Elt Ideal) (region m c) := by
  have h1 : t.val % 8 = 7 := (flush0_4 t).mp hf
  have hN : t.val < 64 := lt_of_lt_of_eq t.isLt (show cfg0.N = 64 from N_0)
  obtain ⟨-, -, -, -, -, -, -, -, e0, e1⟩ := tile_of_point t
  show (cfg0.win 4).cut (grid0.coords t) ((dats m 0 c).after 4 t) = _
  rw [after0_4]
  funext y
  obtain ⟨p, n, rfl⟩ : ∃ (p : Fin 256) (n : Fin 1024), y = ix2 p n := ⟨y 0, y 1, eq_ix2 y⟩
  rw [View.read_apply]
  show (outsAt0 m c t.val t.isLt).1 (ix2 p n) = linear (xarr m c) (warr m c) (aarr m c) (barr m c) (((cfg0.win 4).blk t).view.emb (ix2 p n))
  rw [Accumulate.out_after m c t h1 p n ⟨1024 * (t.val / 8) + n.val, by have := n.isLt; omega⟩ rfl]
  congr 1
  funext a
  apply Fin.ext
  match a with
  | ⟨0, _⟩ => show p.val = win0_4.index t (0 : Fin 2) * 256 + 1 * p.val; omega
  | ⟨1, _⟩ => show 1024 * (t.val / 8) + n.val = win0_4.index t (1 : Fin 2) * 1024 + 1 * n.val; omega

/-- Every entry of the result array is in the block some last step writes back: column o is in tile o / 1024. -/
theorem cover (i : S256x8192.Idx) :
    ∃ t : Fin cfg0.N, (cfg0.win 4).flush t = true ∧ i ∈ ((cfg0.win 4).blk t).view.set := by
  have hi0 : (i 0).val < 256 := (i 0).isLt
  have hi1 : (i 1).val < 8192 := (i 1).isLt
  have hN : cfg0.N = 64 := N_0
  have ht : 8 * ((i 1).val / 1024) + 7 < cfg0.N := by omega
  obtain ⟨-, -, -, -, -, -, -, -, e0, e1⟩ := tile_of_point ⟨8 * ((i 1).val / 1024) + 7, ht⟩
  refine ⟨⟨8 * ((i 1).val / 1024) + 7, ht⟩, (flush0_4 _).mpr (by show (8 * ((i 1).val / 1024) + 7) % 8 = 7; omega), ?_⟩
  show i ∈ ((View.whole main_v1).slice (win0_4.rect ⟨8 * ((i 1).val / 1024) + 7, ht⟩)).set
  rw [View.set_slice_whole, Rect.mem_set_unit]
  have e1' : win0_4.index ⟨8 * ((i 1).val / 1024) + 7, ht⟩ (1 : Fin 2) = (8 * ((i 1).val / 1024) + 7) / 8 := e1
  intro a
  match a with
  | ⟨0, _⟩ =>
    show win0_4.index ⟨8 * ((i 1).val / 1024) + 7, ht⟩ (0 : Fin 2) * 256 ≤ (i 0).val
      ∧ (i 0).val < win0_4.index ⟨8 * ((i 1).val / 1024) + 7, ht⟩ (0 : Fin 2) * 256 + 256
    omega
  | ⟨1, _⟩ =>
    show win0_4.index ⟨8 * ((i 1).val / 1024) + 7, ht⟩ (1 : Fin 2) * 1024 ≤ (i 1).val
      ∧ (i 1).val < win0_4.index ⟨8 * ((i 1).val / 1024) + 7, ht⟩ (1 : Fin 2) * 1024 + 1024
    omega

/-- So the region's result array ends at the layer of the flattened x. -/
theorem region_final (c : Dev nD) : (dats m 0 c).arrAt 4 cfg0.N = region m c :=
  (dats m 0 c).arrAt_eq_of_cover 4 (region m c) (flushed_eq m c) cover

/-- The program's result: the layer of the arguments. -/
abbrev value (c : Dev nD) : Buf (Elt Ideal) ((c : Thread nD τ).loc main_v2) :=
  layer (m ((c : Thread nD τ).loc main_arg1)) (m ((c : Thread nD τ).loc main_arg2)) (m ((c : Thread nD τ).loc main_arg3))
    (m ((c : Thread nD τ).loc main_arg0))

/-- The region's result reshaped to 4 by 64 by 8192 is the layer of the arguments: row 64·b + s of the flattened x is
    row (b, s) of the argument. -/
theorem reshaped (c : Dev nD) :
    shapeCast S4x64x8192 (region m c) shapeCasts_S256x8192_S4x64x8192 = value m c := by
  funext i
  obtain ⟨b, s, o, rfl⟩ : ∃ (b : Fin 4) (s : Fin 64) (o : Fin 8192), i = ix3 b s o := ⟨i 0, i 1, i 2, eq_ix3 i⟩
  have hb := b.isLt
  have hs := s.isLt
  rw [shapeCast_apply (region m c) shapeCasts_S256x8192_S4x64x8192 (ix3 b s o) (ix2 ⟨64 * b.val + s.val, by omega⟩ o) (by
    show (S256x8192.rowMajor (ix2 ⟨64 * b.val + s.val, _⟩ o)).val = (S4x64x8192.rowMajor (ix3 b s o)).val
    rw [Shape.rowMajor_val_two, Shape.rowMajor_val_three]
    show (64 * b.val + s.val) * 8192 + o.val = (b.val * 64 + s.val) * 8192 + o.val
    omega)]
  show linear (xarr m c) (warr m c) (aarr m c) (barr m c) (ix2 ⟨64 * b.val + s.val, _⟩ o) = layer _ _ _ _ (ix3 b s o)
  unfold linear layer
  refine Finset.sum_congr rfl fun d _ => ?_
  show xarr m c (ix2 ⟨64 * b.val + s.val, _⟩ d) * merged (warr m c) (aarr m c) (barr m c) o d = _
  rw [xarr_apply, warr_eq, aarr_eq, barr_eq]

/-- The host's reshape after the region reads the region's result array. -/
theorem tail_eq (c : Dev nD) :
    Pipeline.afterTail₀ cfgs (dats m) 0 (V0 m) [hostOps1] c main_v2 = value m c := by
  unfold Pipeline.afterTail₀
  show StableHlo.after hostOps1 _ (Proc.devRef .tc main_v2) = _
  after_results
  refine Eq.trans ?_ (reshaped m c)
  exact congrArg (fun a => shapeCast S4x64x8192 a shapeCasts_S256x8192_S4x64x8192)
    ((Pipeline.withArrays_arr spec0 launch0.win.arr_inj c _ _ 4).trans (region_final m c))

/-- THE RUN, READ: every weakly fair execution ends with the program's result at the layer of the arguments, and the
    four arguments as launched. -/
theorem run : θ_run defs (onTc (τ := τ) (main (F := Ideal))) ⟨m, fun _ => 0, ρ⟩ fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.Reference.lean ====
/-
  The reference computes the same layer.

  Its last stage, entry (b, s, o), is the sum over the columns d of x[b, s, d] times its merged weight's entry
  (o, d), and its merged weight is W[o, d] + 1 · (1 · ∑ r, A[o, r] · B[r, d]): the two scale factors of the
  low-rank update are both the float one, which is the extended real one, and one times any extended real is that
  extended real.
-/
import proofs.«155965_j66494683676793_1_alg».proof.Proof.MergedWeight
import proofs.«155965_j66494683676793_1_alg».proof.Proof.Gen.ReferenceIdeal.Read
import Idealize.ShloMosaic.Lib.IdealHost

noncomputable section

open scoped BigOperators

namespace Cert.ReferenceIdeal.SameLayer

open Cert.ReferenceIdeal Cert.ReferenceIdeal.Gen Cert.ReferenceIdeal.Read Idealize.ShloMosaic Idealize.ShloMosaic.ValueIdx
open Cert.LoraLinear

/-- The reference's merged weight at (o, d) is W + A·B at (o, d): the unit scales drop out. -/
theorem merged_eq (x1 : (⟨S8192x8192, .f32⟩ : BufTy).Contents (Elt Ideal)) (x2 : (⟨S8192x16, .f32⟩ : BufTy).Contents (Elt Ideal))
    (x3 : (⟨S16x8192, .f32⟩ : BufTy).Contents (Elt Ideal)) (o d : Fin 8192) :
    val_main_v5 (F := Ideal) x1 x2 x3 (ix2 o d) = merged x1 x2 x3 o d := by
  rw [val_main_v5_apply, val_main_v4_apply, val_main_v3_apply, val_main_cst_0_apply, val_main_v2_apply, val_main_v1_apply,
    val_main_cst_apply, val_main_v0_apply]
  simp only [Ideal.addf_def, Ideal.mulf_def, Ideal.ofBits_def, Ideal.ofBits_one_f32, one_mul]
  unfold merged
  refine congrArg (x1 (ix2 o d) + ·) (Finset.sum_congr rfl fun r _ => ?_)
  have el : lidx_main_v0 (ix2 o d) r = ix2 o r := funext fun a => Fin.ext (by
    match a with
    | ⟨0, _⟩ => rfl
    | ⟨1, _⟩ => rfl)
  have er : ridx_main_v0 (ix2 o d) r = ix2 r d := funext fun a => Fin.ext (by
    match a with
    | ⟨0, _⟩ => rfl
    | ⟨1, _⟩ => rfl)
  rw [el, er]

/-- The reference's result is the layer of its four arguments. -/
theorem result_eq (x0 : (⟨S4x64x8192, .f32⟩ : BufTy).Contents (Elt Ideal)) (x1 : (⟨S8192x8192, .f32⟩ : BufTy).Contents (Elt Ideal))
    (x2 : (⟨S8192x16, .f32⟩ : BufTy).Contents (Elt Ideal)) (x3 : (⟨S16x8192, .f32⟩ : BufTy).Contents (Elt Ideal)) :
    val_main_v6 (F := Ideal) x0 x1 x2 x3 = layer x1 x2 x3 x0 := by
  funext i
  obtain ⟨b, s, o, rfl⟩ : ∃ (b : Fin 4) (s : Fin 64) (o : Fin 8192), i = ix3 b s o := ⟨i 0, i 1, i 2, eq_ix3 i⟩
  rw [val_main_v6_apply]
  unfold layer
  refine Finset.sum_congr rfl fun d _ => ?_
  have el : lidx_main_v6 (ix3 b s o) d = ix3 b s d := funext fun a => Fin.ext (by
    match a with
    | ⟨0, _⟩ => rfl
    | ⟨1, _⟩ => rfl
    | ⟨2, _⟩ => rfl)
  have er : ridx_main_v6 (ix3 b s o) d = ix2 o d := funext fun a => Fin.ext (by
    match a with
    | ⟨0, _⟩ => rfl
    | ⟨1, _⟩ => rfl)
  rw [el, er, merged_eq]

end Cert.ReferenceIdeal.SameLayer

end
-- ==== Proof.lean ====
/-
  A linear layer with a low-rank update to its weight, computed tile by tile, against the same layer written whole.

  The inputs are x of shape 4 by 64 by 8192, a weight W of 8192 by 8192, and two thin factors A of 8192 by 16 and B
  of 16 by 8192. Both programs compute, at entry (b, s, o),

      ∑ d < 8192, x[b, s, d] · (W[o, d] + ∑ r < 16, A[o, r] · B[r, d]).

  The reference forms the whole product A·B, scales it twice by one, adds W, and contracts x against the sum. The
  kernel never forms A·B whole: it flattens x to 256 rows, walks an 8 by 8 grid of 1024 by 1024 tiles of W, and at
  tile (j, k) forms that tile of A·B from 1024 rows of A and 1024 columns of B, adds the tile of W, and accumulates
  the product of the k-th 1024 columns of x with the transposed merged tile; after the eighth k the accumulator is
  the j-th 1024 columns of the result, which is then reshaped back to 4 by 64 by 8192.

  Over the extended reals the narrowing of operands before each matrix product is the identity, each product into a
  zero accumulator is the plain sum of products, one times a number is the number, and splitting the sum over 8192
  columns into eight stretches of 1024 only regroups an associative, commutative sum. So the two results are equal
  at every entry, whatever the inputs: the precondition is never opened. The kernel's own idealization rewrote
  nothing, so that conjunct is trivial. The three frames are the generated ones: the two kernels' frame
  certificates, and the reference's run with its result dropped.

  Module by module: MergedWeight states the layer and the column-by-column sums; TileProduct reads one grid point's
  arithmetic entry by entry; Pieces says what each of the body's three ways of running leaves in the accumulator
  and the output block; Blocks places each block in its array; Accumulate follows the accumulator along the grid;
  Result reads the kernel program's result; Reference reads the reference's.
-/
import proofs.«155965_j66494683676793_1_alg».proof.Defs
import proofs.«155965_j66494683676793_1_alg».proof.Proof.Gen.Kernel
import proofs.«155965_j66494683676793_1_alg».proof.Proof.Gen.Kernel.Skeleton
import proofs.«155965_j66494683676793_1_alg».proof.Proof.Gen.Kernel.Launch
import proofs.«155965_j66494683676793_1_alg».proof.Proof.Gen.Kernel.Points
import proofs.«155965_j66494683676793_1_alg».proof.Proof.Gen.Kernel.Frame
import proofs.«155965_j66494683676793_1_alg».proof.Proof.Gen.KernelIdeal
import proofs.«155965_j66494683676793_1_alg».proof.Proof.Gen.KernelIdeal.Skeleton
import proofs.«155965_j66494683676793_1_alg».proof.Proof.Gen.KernelIdeal.Launch
import proofs.«155965_j66494683676793_1_alg».proof.Proof.Gen.KernelIdeal.Points
import proofs.«155965_j66494683676793_1_alg».proof.Proof.Gen.KernelIdeal.Frame
import proofs.«155965_j66494683676793_1_alg».proof.Proof.Gen.ReferenceIdeal
import proofs.«155965_j66494683676793_1_alg».proof.Proof.Gen.ReferenceIdeal.Run
import proofs.«155965_j66494683676793_1_alg».proof.Proof.Gen.ReferenceIdeal.Read
import proofs.«155965_j66494683676793_1_alg».proof.Proof.Gen.Pre_finite_inputs
import proofs.«155965_j66494683676793_1_alg».proof.Proof.Result
import proofs.«155965_j66494683676793_1_alg».proof.Proof.Reference
import Idealize.ShloMosaic.Adequacy
import Idealize.ShloMosaic.Init

noncomputable section

namespace Cert.Proof

open Idealize.ShloMosaic Idealize.SL.Sem

/-- The word-level kernel terminates, faults nowhere and leaves its arguments as launched: its generated frame. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their arguments, and the arguments agree. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.SameLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
